-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x128 .f32) (main_arg6 : FVec F S1 .f32) (main_arg7 : FVec F S1x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1x128 .f32 := Host.absf main_arg5
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1x128 .f32 := Host.absf main_arg7
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S1x128 .f32) (main_arg6 : FVec F S1 .f32) (main_arg7 : FVec F S1x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S5000x128 : Shape := ⟨2, ![5000, 128]⟩
abbrev S1x1 : Shape := ⟨2, ![1, 1]⟩
abbrev S5000x1 : Shape := ⟨2, ![5000, 1]⟩
abbrev S128x1 : Shape := ⟨2, ![128, 1]⟩

abbrev nBuf : Space → Nat
  | .hbm => 60
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x128, .f32⟩
  | .hbm, ⟨6, _⟩ => ⟨S1, .f32⟩
  | .hbm, ⟨7, _⟩ => ⟨S1x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x1, .f32⟩
  | .hbm, ⟨59, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x1, .f32⟩
  | .local _ .vmem, ⟨15, _⟩ => ⟨S1x128, .f32⟩
  | .local _ .vmem, ⟨16, _⟩ => ⟨S5000x1, .f32⟩
  | .local _ .vmem, ⟨17, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S128x128_p1_0_S128x128 : S128x128.Transposes [1, 0] S128x128
  broadcasts_S1x128_S5000x128 : S1x128.Broadcasts S5000x128
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  transposes_S1x128_p1_0_S128x1 : S1x128.Transposes [1, 0] S128x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S100000x1.size a
  hwx1_5 : ∀ i : grid1.Coords, EltTy.bits .f32 = 32 ∨ (Rect.block (s := S100000x1) S5000x1.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x1 : Shape := ⟨2, ![128, 1]⟩
abbrev S1x1 : Shape := ⟨2, ![1, 1]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x128, .f32⟩
  | .hbm, ⟨6, _⟩ => ⟨S1, .f32⟩
  | .hbm, ⟨7, _⟩ => ⟨S1x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x1, .f32⟩
  | .hbm, ⟨74, _⟩ => ⟨S100000x1, .f32⟩
  | .hbm, ⟨75, _⟩ => ⟨S1x1, .f32⟩
  | .hbm, ⟨76, _⟩ => ⟨S100000x1, .f32⟩
  | .hbm, ⟨77, _⟩ => ⟨S100000x1, .f32⟩
  | .hbm, ⟨78, _⟩ => ⟨S128x1, .f32⟩
  | .hbm, ⟨79, _⟩ => ⟨S100000x1, .f32⟩
  | .hbm, ⟨80, _⟩ => ⟨S100000x1, .f32⟩
  | .hbm, ⟨81, _⟩ => ⟨S100000x1, .f32⟩
  | .hbm, ⟨82, _⟩ => ⟨S100000x1, .f32⟩
  | .hbm, ⟨83, _⟩ => ⟨S_, .f32⟩
  | .hbm, ⟨84, _⟩ => ⟨S100000x1, .f32⟩
  | .hbm, ⟨85, _⟩ => ⟨S100000x1, .f32⟩
  | .hbm, ⟨86, _⟩ => ⟨S_, .f32⟩
  | .hbm, ⟨87, _⟩ => ⟨S100000x1, .f32⟩
  | .hbm, ⟨88, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.Payload0.lean ====
/-
  The first layer's block computation read at an entry. A grid point holds 5000 rows of the aggregated
  features `a` and of the node features `x`, both weight matrices and the bias row; entry (p, q) of what it
  stores is  max ((Σ_k a[p,k]·Wl[q,k] + Σ_k x[p,k]·Wr[q,k]) + b[q]) 0 : each matrix product into a zero
  accumulator is the plain sum over the contracted axis, the transposed weight read at (k, q) is the weight at
  (q, k), the narrowing to bf16 is the identity on extended reals, and the bias row is broadcast down the rows.
-/
import proofs.«419590_j58798102282554_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The contraction's operand indices, axis by axis -/

theorem lhsA_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsA_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsA_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsA_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 x 128 block times a 128 x 128 matrix into a zero accumulator, at entry (p, q): the sum over the
    contracted axis of the products. -/
theorem mmA_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-- Entry (p, q) of the first layer's block. -/
theorem pay0_apply (a x : Vec Ideal S5000x128 .f32) (wl wr : Vec Ideal S128x128 .f32) (b : Vec Ideal S1x128 .f32)
    (p : Fin 5000) (q : Fin 128) :
    k0_pay1 (F := Ideal) a x wl wr b (ix2 p q)
      = max (((∑ k : Fin 128, a (ix2 p k) * wl (ix2 q k)) + (∑ k : Fin 128, x (ix2 p k) * wr (ix2 q k)))
          + b (ix2 (0 : Fin 1) q)) (Ideal.ofBits .f32 0x00000000#32) := by
  unfold k0_pay1
  dsimp only
  rw [maximumf_apply, addf_apply, addf_apply, mmA_apply, mmA_apply, broadcastTo_1b_ab_apply]
  have hT : ∀ (w : FVec Ideal S128x128 .bf16) (k q : Fin 128),
      transpose S128x128 [1, 0] w transposes_S128x128_p1_0_S128x128 (ix2 k q) = w (ix2 q k) :=
    fun w k q => transpose_ix2_apply w transposes_S128x128_p1_0_S128x128 k q
  simp only [hT, shapeCast_self, truncf_apply, broadcast_apply, Ideal.ofBits_def]

end Cert.KernelIdeal.Body

end
-- ==== Proof.Region0.lean ====
/-
  The first pallas_call as one whole-array function. Its 20 grid points each take rows 5000 t … 5000 t + 4999 of
  the aggregated features and of the node features, with both weight matrices and the bias row whole, and write
  the same rows of the hidden array; so entry (r, q) of the hidden array ends at
    max ((Σ_k A[r,k]·Wl[q,k] + Σ_k X[r,k]·Wr[q,k]) + B[0,q]) 0
  of the arrays the call found: each block is the restriction of that function, and the 20 row blocks cover the array.
-/
import proofs.«419590_j58798102282554_1_alg».proof.Proof.Gen.KernelIdeal.Frame
import proofs.«419590_j58798102282554_1_alg».proof.Proof.Payload0
import Idealize.ShloMosaic.Lib.Pipeline.Value
import Idealize.ShloMosaic.Lib.ValueIdx

noncomputable section

namespace Cert.KernelIdeal.Layer1

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

/-- Entry (r, q) of the hidden layer from the aggregated features `A`, the node features `X`, the weights and the bias row. -/
def hiddenAt (A X : S100000x128.Idx → EReal) (Wl Wr : S128x128.Idx → EReal) (B : S1x128.Idx → EReal)
    (r : Fin 100000) (q : Fin 128) : EReal :=
  max (((∑ k : Fin 128, A (ix2 r k) * Wl (ix2 q k)) + (∑ k : Fin 128, X (ix2 r k) * Wr (ix2 q k)))
    + B (ix2 (0 : Fin 1) q)) (Ideal.ofBits .f32 0x00000000#32)

/-- The hidden layer as an array. -/
def hidden (A X : S100000x128.Idx → EReal) (Wl Wr : S128x128.Idx → EReal) (B : S1x128.Idx → EReal) :
    S100000x128.Idx → EReal := fun i => hiddenAt A X Wl Wr B (i 0) (i 1)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the row-blocked windows move with the point, the rest stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 20 := by
  exact Nat.lt_of_lt_of_eq t.isLt (show cfg0.N = 20 from N_0)

theorem row_lt (t : Fin cfg0.N) (p : Fin 5000) : 5000 * t.val + p.val < 100000 := by
  have := point_lt t; have := p.isLt; omega

/-- The arrays the call finds and the blocks a point holds, at their literal types. -/
abbrev arrA (c : Dev nD) : Vec Ideal S100000x128 .f32 := V c main_v24
abbrev arrX (c : Dev nD) : Vec Ideal S100000x128 .f32 := V c main_arg0
abbrev arrWl (c : Dev nD) : Vec Ideal S128x128 .f32 := V c main_arg2
abbrev arrB (c : Dev nD) : Vec Ideal S1x128 .f32 := V c main_v25
abbrev arrWr (c : Dev nD) : Vec Ideal S128x128 .f32 := V c main_arg4
abbrev blkA (c : Dev nD) (t : Fin cfg0.N) : Vec Ideal S5000x128 .f32 := iblk0 V c 0 t
abbrev blkX (c : Dev nD) (t : Fin cfg0.N) : Vec Ideal S5000x128 .f32 := iblk0 V c 1 t
abbrev blkWl (c : Dev nD) (t : Fin cfg0.N) : Vec Ideal S128x128 .f32 := iblk0 V c 2 t
abbrev blkB (c : Dev nD) (t : Fin cfg0.N) : Vec Ideal S1x128 .f32 := iblk0 V c 3 t
abbrev blkWr (c : Dev nD) (t : Fin cfg0.N) : Vec Ideal S128x128 .f32 := iblk0 V c 4 t

theorem blkA_apply (c : Dev nD) (t : Fin cfg0.N) (p : Fin 5000) (k : Fin 128) :
    blkA V c t (ix2 p k) = arrA V c (ix2 ⟨5000 * t.val + p.val, row_lt t p⟩ k) := by
  obtain ⟨e0, e1, -⟩ := idx_facts t
  show arrA V c (((cfg0.win 0).blk t).view.emb (ix2 p k)) = _
  refine congrArg (arrA V c) (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

theorem blkX_apply (c : Dev nD) (t : Fin cfg0.N) (p : Fin 5000) (k : Fin 128) :
    blkX V c t (ix2 p k) = arrX V c (ix2 ⟨5000 * t.val + p.val, row_lt t p⟩ k) := by
  obtain ⟨-, -, e0, e1, -⟩ := idx_facts t
  show arrX V c (((cfg0.win 1).blk t).view.emb (ix2 p k)) = _
  refine congrArg (arrX V c) (funext fun a => Fin.ext ?_)
  match a with
  | ⟨0, _⟩ => show win0_1.index t (0 : Fin 2) * 5000 + 1 * p.val = 5000 * t.val + p.val; omega
  | ⟨1, _⟩ => show win0_1.index t (1 : Fin 2) * 128 + 1 * k.val = k.val; omega

theorem blkWl_apply (c : Dev nD) (t : Fin cfg0.N) (q k : Fin 128) :
    blkWl V c t (ix2 q k) = arrWl V c (ix2 q k) := by
  obtain ⟨-, -, -, -, e0, e1, -⟩ := idx_facts t
  show arrWl V c (((cfg0.win 2).blk t).view.emb (ix2 q k)) = _
  refine congrArg (arrWl V c) (funext fun a => Fin.ext ?_)
  match a with
  | ⟨0, _⟩ => show win0_2.index t (0 : Fin 2) * 128 + 1 * q.val = q.val; omega
  | ⟨1, _⟩ => show win0_2.index t (1 : Fin 2) * 128 + 1 * k.val = k.val; omega

theorem blkB_apply (c : Dev nD) (t : Fin cfg0.N) (z : Fin 1) (q : Fin 128) :
    blkB V c t (ix2 z q) = arrB V c (ix2 z q) := by
  obtain ⟨-, -, -, -, -, -, e0, e1, -⟩ := idx_facts t
  show arrB V c (((cfg0.win 3).blk t).view.emb (ix2 z q)) = _
  refine congrArg (arrB V c) (funext fun a => Fin.ext ?_)
  match a with
  | ⟨0, _⟩ => show win0_3.index t (0 : Fin 2) * 1 + 1 * z.val = z.val; omega
  | ⟨1, _⟩ => show win0_3.index t (1 : Fin 2) * 128 + 1 * q.val = q.val; omega

theorem blkWr_apply (c : Dev nD) (t : Fin cfg0.N) (q k : Fin 128) :
    blkWr V c t (ix2 q k) = arrWr V c (ix2 q k) := by
  obtain ⟨-, -, -, -, -, -, -, -, e0, e1, -⟩ := idx_facts t
  show arrWr V c (((cfg0.win 4).blk t).view.emb (ix2 q k)) = _
  refine congrArg (arrWr V c) (funext fun a => Fin.ext ?_)
  match a with
  | ⟨0, _⟩ => show win0_4.index t (0 : Fin 2) * 128 + 1 * q.val = q.val; omega
  | ⟨1, _⟩ => show win0_4.index t (1 : Fin 2) * 128 + 1 * k.val = k.val; omega

/-- Where entry (p, q) of point `t`'s output block lies in the hidden array. -/
theorem out_emb (t : Fin cfg0.N) (p : Fin 5000) (q : Fin 128) :
    ((cfg0.win 5).blk t).view.emb (ix2 p q) = ix2 (⟨5000 * t.val + p.val, row_lt t p⟩ : Fin 100000) q := by
  obtain ⟨-, -, -, -, -, -, -, -, -, -, e0, e1⟩ := idx_facts t
  refine funext fun a => Fin.ext ?_
  match a with
  | ⟨0, _⟩ => show win0_5.index t (0 : Fin 2) * 5000 + 1 * p.val = 5000 * t.val + p.val; omega
  | ⟨1, _⟩ => show win0_5.index t (1 : Fin 2) * 128 + 1 * q.val = q.val; omega

/-- What point `t` writes back is block `t` of the hidden layer of the arrays the call found. -/
theorem flushed_eq (c : Dev nD) (t : Fin cfg0.N) :
    (dat0 V c).flushed 5 t = ((cfg0.win 5).blk t).view.read (Elt Ideal)
      (hidden (arrA V c) (arrX V c) (arrWl V c) (arrWr V c) (arrB V c)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (pay0_apply (blkA V c t) (blkX V c t) (blkWl V c t) (blkWr V c t) (blkB V c t) p q).trans ?_
  show _ = hidden (arrA V c) (arrX V c) (arrWl V c) (arrWr V c) (arrB V c) (((cfg0.win 5).blk t).view.emb (ix2 p q))
  rw [out_emb t p q]
  show _ = hiddenAt (arrA V c) (arrX V c) (arrWl V c) (arrWr V c) (arrB V c) ⟨5000 * t.val + p.val, row_lt t p⟩ q
  unfold hiddenAt
  simp only [blkA_apply, blkX_apply, blkWl_apply, blkWr_apply, blkB_apply]

/-- An index of the hidden array is in point `t`'s block iff its row is among the point's 5000. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- The 20 row blocks cover the hidden array. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, -, -, -, -, e0, e1⟩ := idx_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The hidden array after the call: the hidden layer of the arrays the call found. -/
theorem final (c : Dev nD) :
    (dat0 V c).arrAt 5 cfg0.N = hidden (arrA V c) (arrX V c) (arrWl V c) (arrWr V c) (arrB V c) :=
  (dat0 V c).arrAt_eq_of_cover 5 _ (fun t _ => flushed_eq V c t) cover

end Cert.KernelIdeal.Layer1

end
-- ==== Proof.Payload1.lean ====
/-
  The second layer's block computation read at an entry. A grid point holds 5000 rows of the aggregated hidden
  features `a` and of the hidden features `h`, the two 1 x 128 weight rows and the 1 x 1 bias; entry (p, 0) of
  what it stores is  logistic ((Σ_k a[p,k]·Wl[0,k] + Σ_k h[p,k]·Wr[0,k]) + b[0,0]).
-/
import proofs.«419590_j58798102282554_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The contraction's operand indices, axis by axis -/

theorem lhsB_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem lhsB_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
theorem rhsB_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
theorem rhsB_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- A 5000 x 128 block times a 128 x 1 column into a zero accumulator, at entry (p, q): the sum over the
    contracted axis of the products. -/
theorem mmB_apply (l : FVec Ideal S5000x128 .bf16) (r : FVec Ideal S128x1 .bf16) (p : Fin 5000) (q : Fin 1) :
    matmul dot_S5000x128_S128x1_S5000x1_1_0_0_1_n_n none l r (constant S5000x1 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx (ix2 p q) ((ValueIdx.contrEquiv1 dot_S5000x128_S128x1_S5000x1_1_0_0_1_n_n 128 rfl rfl).symm k) = ix2 p k := funext fun a => Fin.ext (by
    match a with
    | ⟨0, _⟩ => exact lhsB_0 _ _
    | ⟨1, _⟩ => exact (lhsB_1 _ _).trans hk)
  have er : dot_S5000x128_S128x1_S5000x1_1_0_0_1_n_n.rhsIdx (ix2 p q) ((ValueIdx.contrEquiv1 dot_S5000x128_S128x1_S5000x1_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-- Entry (p, q) of the second layer's block (q ranges over the one output column). -/
theorem pay1_apply (a h : Vec Ideal S5000x128 .f32) (wl wr : Vec Ideal S1x128 .f32) (b : Vec Ideal S1x1 .f32)
    (p : Fin 5000) (q : Fin 1) :
    k1_pay1 (F := Ideal) a h wl wr b (ix2 p q)
      = Ideal.logistic (((∑ k : Fin 128, a (ix2 p k) * wl (ix2 q k)) + (∑ k : Fin 128, h (ix2 p k) * wr (ix2 q k)))
          + b (ix2 (0 : Fin 1) q)) := by
  unfold k1_pay1
  dsimp only
  rw [show ∀ (v : FVec Ideal S5000x1 .f32) (i : S5000x1.Idx), logistic v i = Ideal.logistic (v i) from fun _ _ => rfl,
    addf_apply, addf_apply, mmB_apply, mmB_apply, broadcastTo_1b_ab_apply]
  have hT : ∀ (w : FVec Ideal S1x128 .bf16) (k : Fin 128) (q : Fin 1),
      transpose S128x1 [1, 0] w transposes_S1x128_p1_0_S128x1 (ix2 k q) = w (ix2 q k) :=
    fun w k q => transpose_ix2_apply w transposes_S1x128_p1_0_S128x1 k q
  simp only [hT, shapeCast_self, truncf_apply]

end Cert.KernelIdeal.Body

end
-- ==== Proof.Region1.lean ====
/-
  The second pallas_call as one whole-array function. Its 20 grid points each take rows 5000 t … 5000 t + 4999 of
  the aggregated hidden features and of the hidden features, with the two weight rows and the bias whole, and write
  the same rows of the one-column result; so entry (r, 0) of the result ends at
    logistic ((Σ_k A[r,k]·Wl[0,k] + Σ_k H[r,k]·Wr[0,k]) + B[0,0])
  of the arrays the call found: each block is the restriction of that function, and the 20 row blocks cover the array.
-/
import proofs.«419590_j58798102282554_1_alg».proof.Proof.Gen.KernelIdeal.Frame
import proofs.«419590_j58798102282554_1_alg».proof.Proof.Payload1
import Idealize.ShloMosaic.Lib.Pipeline.Value
import Idealize.ShloMosaic.Lib.ValueIdx

noncomputable section

namespace Cert.KernelIdeal.Layer2

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

/-- Entry (r, z) of the output layer from the aggregated hidden features `A`, the hidden features `H`, the weight rows and the bias. -/
def scoreAt (A H : S100000x128.Idx → EReal) (Wl Wr : S1x128.Idx → EReal) (B : S1x1.Idx → EReal)
    (r : Fin 100000) (z : Fin 1) : EReal :=
  Ideal.logistic (((∑ k : Fin 128, A (ix2 r k) * Wl (ix2 z k)) + (∑ k : Fin 128, H (ix2 r k) * Wr (ix2 z k)))
    + B (ix2 (0 : Fin 1) z))

/-- The output layer as an array. -/
def score (A H : S100000x128.Idx → EReal) (Wl Wr : S1x128.Idx → EReal) (B : S1x1.Idx → EReal) :
    S100000x1.Idx → EReal := fun i => scoreAt A H Wl Wr B (i 0) (i 1)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the row-blocked windows move with the point, the rest stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 20 :=
  Nat.lt_of_lt_of_eq t.isLt (show cfg1.N = 20 from N_1)

theorem row_lt (t : Fin cfg1.N) (p : Fin 5000) : 5000 * t.val + p.val < 100000 := by
  have := point_lt t; have := p.isLt; omega

/-- The arrays the call finds and the blocks a point holds, at their literal types. -/
abbrev arrA (c : Dev nD) : Vec Ideal S100000x128 .f32 := V c main_v39
abbrev arrH (c : Dev nD) : Vec Ideal S100000x128 .f32 := V c main_v26
abbrev arrWl (c : Dev nD) : Vec Ideal S1x128 .f32 := V c main_arg5
abbrev arrB (c : Dev nD) : Vec Ideal S1x1 .f32 := V c main_v40
abbrev arrWr (c : Dev nD) : Vec Ideal S1x128 .f32 := V c main_arg7
abbrev blkA (c : Dev nD) (t : Fin cfg1.N) : Vec Ideal S5000x128 .f32 := iblk1 V c 0 t
abbrev blkH (c : Dev nD) (t : Fin cfg1.N) : Vec Ideal S5000x128 .f32 := iblk1 V c 1 t
abbrev blkWl (c : Dev nD) (t : Fin cfg1.N) : Vec Ideal S1x128 .f32 := iblk1 V c 2 t
abbrev blkB (c : Dev nD) (t : Fin cfg1.N) : Vec Ideal S1x1 .f32 := iblk1 V c 3 t
abbrev blkWr (c : Dev nD) (t : Fin cfg1.N) : Vec Ideal S1x128 .f32 := iblk1 V c 4 t

theorem blkA_apply (c : Dev nD) (t : Fin cfg1.N) (p : Fin 5000) (k : Fin 128) :
    blkA V c t (ix2 p k) = arrA V c (ix2 ⟨5000 * t.val + p.val, row_lt t p⟩ k) := by
  obtain ⟨e0, e1, -⟩ := idx_facts t
  show arrA V c (((cfg1.win 0).blk t).view.emb (ix2 p k)) = _
  refine congrArg (arrA V c) (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * k.val = k.val; omega

theorem blkH_apply (c : Dev nD) (t : Fin cfg1.N) (p : Fin 5000) (k : Fin 128) :
    blkH V c t (ix2 p k) = arrH V c (ix2 ⟨5000 * t.val + p.val, row_lt t p⟩ k) := by
  obtain ⟨-, -, e0, e1, -⟩ := idx_facts t
  show arrH V c (((cfg1.win 1).blk t).view.emb (ix2 p k)) = _
  refine congrArg (arrH V c) (funext fun a => Fin.ext ?_)
  match a with
  | ⟨0, _⟩ => show win1_1.index t (0 : Fin 2) * 5000 + 1 * p.val = 5000 * t.val + p.val; omega
  | ⟨1, _⟩ => show win1_1.index t (1 : Fin 2) * 128 + 1 * k.val = k.val; omega

theorem blkWl_apply (c : Dev nD) (t : Fin cfg1.N) (z : Fin 1) (k : Fin 128) :
    blkWl V c t (ix2 z k) = arrWl V c (ix2 z k) := by
  obtain ⟨-, -, -, -, e0, e1, -⟩ := idx_facts t
  show arrWl V c (((cfg1.win 2).blk t).view.emb (ix2 z k)) = _
  refine congrArg (arrWl V c) (funext fun a => Fin.ext ?_)
  match a with
  | ⟨0, _⟩ => show win1_2.index t (0 : Fin 2) * 1 + 1 * z.val = z.val; omega
  | ⟨1, _⟩ => show win1_2.index t (1 : Fin 2) * 128 + 1 * k.val = k.val; omega

theorem blkB_apply (c : Dev nD) (t : Fin cfg1.N) (y z : Fin 1) :
    blkB V c t (ix2 y z) = arrB V c (ix2 y z) := by
  obtain ⟨-, -, -, -, -, -, e0, e1, -⟩ := idx_facts t
  show arrB V c (((cfg1.win 3).blk t).view.emb (ix2 y z)) = _
  refine congrArg (arrB V c) (funext fun a => Fin.ext ?_)
  match a with
  | ⟨0, _⟩ => show win1_3.index t (0 : Fin 2) * 1 + 1 * y.val = y.val; omega
  | ⟨1, _⟩ => show win1_3.index t (1 : Fin 2) * 1 + 1 * z.val = z.val; omega

theorem blkWr_apply (c : Dev nD) (t : Fin cfg1.N) (z : Fin 1) (k : Fin 128) :
    blkWr V c t (ix2 z k) = arrWr V c (ix2 z k) := by
  obtain ⟨-, -, -, -, -, -, -, -, e0, e1, -⟩ := idx_facts t
  show arrWr V c (((cfg1.win 4).blk t).view.emb (ix2 z k)) = _
  refine congrArg (arrWr V c) (funext fun a => Fin.ext ?_)
  match a with
  | ⟨0, _⟩ => show win1_4.index t (0 : Fin 2) * 1 + 1 * z.val = z.val; omega
  | ⟨1, _⟩ => show win1_4.index t (1 : Fin 2) * 128 + 1 * k.val = k.val; omega

/-- Where entry (p, z) of point `t`'s output block lies in the result array. -/
theorem out_emb (t : Fin cfg1.N) (p : Fin 5000) (z : Fin 1) :
    ((cfg1.win 5).blk t).view.emb (ix2 p z) = ix2 (⟨5000 * t.val + p.val, row_lt t p⟩ : Fin 100000) z := by
  obtain ⟨-, -, -, -, -, -, -, -, -, -, e0, e1⟩ := idx_facts t
  refine funext fun a => Fin.ext ?_
  match a with
  | ⟨0, _⟩ => show win1_5.index t (0 : Fin 2) * 5000 + 1 * p.val = 5000 * t.val + p.val; omega
  | ⟨1, _⟩ => show win1_5.index t (1 : Fin 2) * 1 + 1 * z.val = z.val; omega

/-- What point `t` writes back is block `t` of the output layer of the arrays the call found. -/
theorem flushed_eq (c : Dev nD) (t : Fin cfg1.N) :
    (dat1 V c).flushed 5 t = ((cfg1.win 5).blk t).view.read (Elt Ideal)
      (score (arrA V c) (arrH V c) (arrWl V c) (arrWr V c) (arrB V c)) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz, View.ld_unit_zero (S := S1x1) hz]
  funext j
  obtain ⟨p, z, rfl⟩ : ∃ (p : Fin 5000) (z : Fin 1), j = ix2 p z := ⟨j 0, j 1, eq_ix2 j⟩
  refine (pay1_apply (blkA V c t) (blkH V c t) (blkWl V c t) (blkWr V c t) (blkB V c t) p z).trans ?_
  show _ = score (arrA V c) (arrH V c) (arrWl V c) (arrWr V c) (arrB V c) (((cfg1.win 5).blk t).view.emb (ix2 p z))
  rw [out_emb t p z]
  show _ = scoreAt (arrA V c) (arrH V c) (arrWl V c) (arrWr V c) (arrB V c) ⟨5000 * t.val + p.val, row_lt t p⟩ z
  unfold scoreAt
  simp only [blkA_apply, blkH_apply, blkWl_apply, blkWr_apply, blkB_apply]

/-- An index of the result array is in point `t`'s block iff its row is among the point's 5000. -/
theorem mem_blk (t : Fin cfg1.N) (i : S100000x1.Idx) :
    i ∈ ((cfg1.win 5).blk t).view.set ↔ ∀ a : Fin 2, win1_5.index t a * S5000x1.size a ≤ (i a).val ∧ (i a).val < win1_5.index t a * S5000x1.size a + S5000x1.size a := by
  show i ∈ ((View.whole main_v41).slice (win1_5.rect t)).set ↔ _
  rw [View.set_slice_whole, Rect.mem_set_unit]
  exact Iff.rfl

/-- The 20 row blocks cover the result array. -/
theorem cover (i : S100000x1.Idx) :
    ∃ t : Fin cfg1.N, (cfg1.win 5).flush t = true ∧ i ∈ ((cfg1.win 5).blk t).view.set := by
  have hi0 : (i 0).val < 100000 := (i 0).isLt
  have hi1 : (i 1).val < 1 := (i 1).isLt
  have hN : cfg1.N = 20 := N_1
  let t : Fin cfg1.N := ⟨(i 0).val / 5000, by rw [hN]; omega⟩
  obtain ⟨-, -, -, -, -, -, -, -, -, -, e0, e1⟩ := idx_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 1 ≤ (i 1).val ∧ (i 1).val < win1_5.index t (1 : Fin 2) * 1 + 1; omega

/-- The result array after the call: the output layer of the arrays the call found. -/
theorem final (c : Dev nD) :
    (dat1 V c).arrAt 5 cfg1.N = score (arrA V c) (arrH V c) (arrWl V c) (arrWr V c) (arrB V c) :=
  (dat1 V c).arrAt_eq_of_cover 5 _ (fun t _ => flushed_eq V c t) cover

end Cert.KernelIdeal.Layer2

end
-- ==== Proof.HostParts.lean ====
/-
  The host computations both programs share, each as one function of its operands: the source and destination
  index columns cut out of the edge list (a negative source index wrapped by the node count, as jnp's indexing does),
  the neighbour sum  N(h)[i,:] = Σ_{e : dst e = i} h[src e,:]  (a row gather scattered-and-added into zeros), and the
  in-degree  deg[i] = Σ_{e : dst e = i} 1. Nothing below opens them: the two programs apply them to equal operands.
-/
import proofs.«419590_j58798102282554_1_alg».proof.Proof.Gen.KernelIdeal

noncomputable section

namespace Cert.KernelIdeal.Shared

open Cert.KernelIdeal Cert.KernelIdeal.Gen Idealize.ShloMosaic

variable {F : FTy → Type} [FloatOps F]

/-- Row `j` of the edge list as a vector. -/
def srcRow (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

def dstRow (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The source indices, a negative one wrapped by the node count, as the gather's index column. -/
def srcCol (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The destination indices as the scatter's index column. -/
def dstCol (d : (⟨S1600000, .i32⟩ : BufTy).Contents (Elt F)) : (⟨S1600000x1, .i32⟩ : BufTy).Contents (Elt F) :=
  broadcastInDim S1600000x1 ![0] bcast_S1600000_S1600000x1_0 d

/-- The neighbour sum of the rows of `h`. -/
def neigh (s d : (⟨S1600000, .i32⟩ : BufTy).Contents (Elt F)) (h : (⟨S100000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (dstCol d)
    (Host.gather gather_S100000x128_S1600000x1_S1600000x128_1_0_n_n_0_1_1128 h (srcCol s))

/-- The in-degree of every node. -/
def deg (d : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32)) (dstCol d)
    (broadcastInDim S1600000 ![] bcast_S_S1600000 (constant S_ .f32 0x3F800000#32))

/-- The in-degree, at least one. -/
def degm (d : (⟨S1600000, .i32⟩ : BufTy).Contents (Elt F)) : (⟨S100000, .f32⟩ : BufTy).Contents (Elt F) :=
  maximumf (deg d) (broadcastInDim S100000 ![] bcast_S_S100000 (constant S_ .f32 0x3F800000#32))

/-- One over the floored in-degree. -/
def rdeg (d : (⟨S1600000, .i32⟩ : BufTy).Contents (Elt F)) : (⟨S100000, .f32⟩ : BufTy).Contents (Elt F) :=
  Host.divf (broadcastInDim S100000 ![] bcast_S_S100000 (constant S_ .f32 0x3F800000#32)) (degm d)

/-- A per-node value laid over the 128 feature columns. -/
def cols (v : (⟨S100000, .f32⟩ : BufTy).Contents (Elt F)) : (⟨S100000x128, .f32⟩ : BufTy).Contents (Elt F) :=
  broadcastInDim S100000x128 ![0, 1] bcast_S100000x1_S100000x128_0_1
    (broadcastInDim S100000x1 ![0] bcast_S100000_S100000x1_0 v)

/-- The neighbour mean as the kernel's program computes it: the sum times one over the floored in-degree. -/
def meanMul (s d : (⟨S1600000, .i32⟩ : BufTy).Contents (Elt F)) (h : (⟨S100000x128, .f32⟩ : BufTy).Contents (Elt F)) :
    (⟨S100000x128, .f32⟩ : BufTy).Contents (Elt F) :=
  mulf (neigh s d h) (cols (rdeg d))

/-- The neighbour mean as the reference computes it: the sum divided by the floored in-degree. -/
def meanDiv (s d : (⟨S1600000, .i32⟩ : BufTy).Contents (Elt F)) (h : (⟨S100000x128, .f32⟩ : BufTy).Contents (Elt F)) :
    (⟨S100000x128, .f32⟩ : BufTy).Contents (Elt F) :=
  Host.divf (neigh s d h) (cols (degm d))

end Cert.KernelIdeal.Shared

end
-- ==== Proof.Model.lean ====
/-
  The kernel's program as mathematics: with  mean(h) = (neighbour sum of h) · (1 / max(deg, 1))  row by row,
    hidden = max (mean(x)·Wl1ᵀ + x·Wr1ᵀ + b1, 0)   and   result = logistic (mean(hidden)·Wl2ᵀ + hidden·Wr2ᵀ + b2).
-/
import proofs.«419590_j58798102282554_1_alg».proof.Proof.Region0
import proofs.«419590_j58798102282554_1_alg».proof.Proof.Region1
import proofs.«419590_j58798102282554_1_alg».proof.Proof.HostParts

noncomputable section

namespace Cert.KernelIdeal.Model

open Cert.KernelIdeal Cert.KernelIdeal.Gen Cert.KernelIdeal.Shared Idealize.ShloMosaic

/-- The hidden layer as a function of the arguments. -/
def hiddenOf (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) : (⟨S100000x128, .f32⟩ : BufTy).Contents (Elt Ideal) :=
  Layer1.hidden (meanMul (srcRow x1) (dstRow x1) x0) x0 x2 x4 (shapeCast S1x128 x3 shapeCasts_S128_S1x128)

/-- The result as a function of the arguments. -/
def resultOf (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S1x128, .f32⟩ : BufTy).Contents (Elt Ideal))
    (x6 : (⟨S1, .f32⟩ : BufTy).Contents (Elt Ideal)) (x7 : (⟨S1x128, .f32⟩ : BufTy).Contents (Elt Ideal)) :
    (⟨S100000x1, .f32⟩ : BufTy).Contents (Elt Ideal) :=
  Layer2.score (meanMul (srcRow x1) (dstRow x1) (hiddenOf x0 x1 x2 x3 x4)) (hiddenOf x0 x1 x2 x3 x4) x5 x7
    (shapeCast S1x1 x6 shapeCasts_S1_S1x1)

end Cert.KernelIdeal.Model

end
-- ==== Proof.KernelValue.lean ====
/-
  The kernel's program as one function of its arguments. Before the first pallas_call the host computes the
  neighbour mean of the node features (neighbour sum times one over the in-degree floored at one) and reshapes the
  first bias to a row; the call leaves the hidden layer; between the calls the host computes the neighbour mean of the
  hidden layer and reshapes the second bias; the second call leaves the result. Every buffer a call reads is read
  back through the host operations to the launch contents of the arguments.
-/
import proofs.«419590_j58798102282554_1_alg».proof.Proof.KernelRun
import proofs.«419590_j58798102282554_1_alg».proof.Proof.Region0
import proofs.«419590_j58798102282554_1_alg».proof.Proof.Region1
import proofs.«419590_j58798102282554_1_alg».proof.Proof.Model
import Idealize.ShloMosaic.Lib.StableHlo.Run

noncomputable section

namespace Cert.KernelIdeal.Whole

open Cert.KernelIdeal Cert.KernelIdeal.Gen Cert.KernelIdeal.Shared Cert.KernelIdeal.Model
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the first call finds -/

theorem entry0_src (c : Dev nD) : W1 m ρ c (Proc.devRef .tc main_v1) = srcRow (m ((c.tc : Thread nD τ).loc main_arg1)) := by
  show StableHlo.after hostOps0 (W0 m ρ c) (Proc.devRef .tc main_v1) = _
  after_results_simp <;> rfl
theorem entry0_dst (c : Dev nD) : W1 m ρ c (Proc.devRef .tc main_v3) = dstRow (m ((c.tc : Thread nD τ).loc main_arg1)) := by
  show StableHlo.after hostOps0 (W0 m ρ c) (Proc.devRef .tc main_v3) = _
  after_results_simp <;> rfl
theorem entry0_rdeg (c : Dev nD) : W1 m ρ c (Proc.devRef .tc main_v11) = rdeg (dstRow (m ((c.tc : Thread nD τ).loc main_arg1))) := by
  show StableHlo.after hostOps0 (W0 m ρ c) (Proc.devRef .tc main_v11) = _
  after_results_simp <;> rfl
theorem entry0_A (c : Dev nD) : V1 m ρ c main_v24
    = meanMul (srcRow (m ((c.tc : Thread nD τ).loc main_arg1))) (dstRow (m ((c.tc : Thread nD τ).loc main_arg1))) (m ((c.tc : Thread nD τ).loc main_arg0)) := by
  show StableHlo.after hostOps0 (W0 m ρ c) (Proc.devRef .tc main_v24) = _
  after_results_simp <;> rfl
theorem entry0_X (c : Dev nD) : V1 m ρ c main_arg0 = m ((c.tc : Thread nD τ).loc main_arg0) := by
  show StableHlo.after hostOps0 (W0 m ρ c) (Proc.devRef .tc main_arg0) = _
  after_results_simp <;> rfl
theorem entry0_Wl (c : Dev nD) : V1 m ρ c main_arg2 = m ((c.tc : Thread nD τ).loc main_arg2) := by
  show StableHlo.after hostOps0 (W0 m ρ c) (Proc.devRef .tc main_arg2) = _
  after_results_simp <;> rfl
theorem entry0_Wr (c : Dev nD) : V1 m ρ c main_arg4 = m ((c.tc : Thread nD τ).loc main_arg4) := by
  show StableHlo.after hostOps0 (W0 m ρ c) (Proc.devRef .tc main_arg4) = _
  after_results_simp <;> rfl
theorem entry0_B (c : Dev nD) : V1 m ρ c main_v25 = shapeCast S1x128 (m ((c.tc : Thread nD τ).loc main_arg3)) shapeCasts_S128_S1x128 := by
  show StableHlo.after hostOps0 (W0 m ρ c) (Proc.devRef .tc main_v25) = _
  after_results_simp <;> rfl
theorem entry0_arg5 (c : Dev nD) : W1 m ρ c (Proc.devRef .tc main_arg5) = m ((c.tc : Thread nD τ).loc main_arg5) := by
  show StableHlo.after hostOps0 (W0 m ρ c) (Proc.devRef .tc main_arg5) = _
  after_results_simp <;> rfl
theorem entry0_arg6 (c : Dev nD) : W1 m ρ c (Proc.devRef .tc main_arg6) = m ((c.tc : Thread nD τ).loc main_arg6) := by
  show StableHlo.after hostOps0 (W0 m ρ c) (Proc.devRef .tc main_arg6) = _
  after_results_simp <;> rfl
theorem entry0_arg7 (c : Dev nD) : W1 m ρ c (Proc.devRef .tc main_arg7) = m ((c.tc : Thread nD τ).loc main_arg7) := by
  show StableHlo.after hostOps0 (W0 m ρ c) (Proc.devRef .tc main_arg7) = _
  after_results_simp <;> rfl

/-! ## What the first call leaves -/

/-- The hidden array after the first call. -/
theorem hidden_arr (c : Dev nD) : W2 m ρ c (Proc.devRef .tc main_v26)
    = hiddenOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (W2_arr m ρ c 5).trans ((Layer1.final (V1 m ρ) c).trans ?_)
  show Layer1.hidden (V1 m ρ c main_v24) (V1 m ρ c main_arg0) (V1 m ρ c main_arg2) (V1 m ρ c main_arg4) (V1 m ρ c main_v25) = _
  rw [entry0_A m ρ c, entry0_X m ρ c, entry0_Wl m ρ c, entry0_Wr m ρ c, entry0_B m ρ c]
  rfl

/-! ## What the second call finds -/

theorem entry1_H (c : Dev nD) : V3 m ρ c main_v26 = W2 m ρ c (Proc.devRef .tc main_v26) := by
  show StableHlo.after hostOps1 (W2 m ρ c) (Proc.devRef .tc main_v26) = _
  after_results_simp <;> rfl
theorem entry1_A (c : Dev nD) : V3 m ρ c main_v39
    = meanMul (srcRow (m ((c.tc : Thread nD τ).loc main_arg1))) (dstRow (m ((c.tc : Thread nD τ).loc main_arg1))) (W2 m ρ c (Proc.devRef .tc main_v26)) := by
  have e : V3 m ρ c main_v39 = mulf (neigh (W2 m ρ c (Proc.devRef .tc main_v1)) (W2 m ρ c (Proc.devRef .tc main_v3)) (W2 m ρ c (Proc.devRef .tc main_v26)))
      (cols (W2 m ρ c (Proc.devRef .tc main_v11))) := by
    show StableHlo.after hostOps1 (W2 m ρ c) (Proc.devRef .tc main_v39) = _
    after_results_simp
    unfold neigh cols srcCol dstCol
    rfl
  rw [e, W2_of_ne m ρ c main_v1 (by decide), W2_of_ne m ρ c main_v3 (by decide), W2_of_ne m ρ c main_v11 (by decide),
    entry0_src m ρ c, entry0_dst m ρ c, entry0_rdeg m ρ c]
  rfl
theorem entry1_Wl (c : Dev nD) : V3 m ρ c main_arg5 = m ((c.tc : Thread nD τ).loc main_arg5) := by
  have e : V3 m ρ c main_arg5 = W2 m ρ c (Proc.devRef .tc main_arg5) := by
    show StableHlo.after hostOps1 (W2 m ρ c) (Proc.devRef .tc main_arg5) = _
    after_results_simp <;> rfl
  rw [e, W2_of_ne m ρ c main_arg5 (by decide), entry0_arg5 m ρ c]
theorem entry1_Wr (c : Dev nD) : V3 m ρ c main_arg7 = m ((c.tc : Thread nD τ).loc main_arg7) := by
  have e : V3 m ρ c main_arg7 = W2 m ρ c (Proc.devRef .tc main_arg7) := by
    show StableHlo.after hostOps1 (W2 m ρ c) (Proc.devRef .tc main_arg7) = _
    after_results_simp <;> rfl
  rw [e, W2_of_ne m ρ c main_arg7 (by decide), entry0_arg7 m ρ c]
theorem entry1_B (c : Dev nD) : V3 m ρ c main_v40 = shapeCast S1x1 (m ((c.tc : Thread nD τ).loc main_arg6)) shapeCasts_S1_S1x1 := by
  have e : V3 m ρ c main_v40 = shapeCast S1x1 (W2 m ρ c (Proc.devRef .tc main_arg6)) shapeCasts_S1_S1x1 := by
    show StableHlo.after hostOps1 (W2 m ρ c) (Proc.devRef .tc main_v40) = _
    after_results_simp <;> rfl
  rw [e, W2_of_ne m ρ c main_arg6 (by decide), entry0_arg6 m ρ c]

/-! ## What the second call leaves, and the run -/

/-- The result array after the second call. -/
theorem result_arr (c : Dev nD) : W4 m ρ c (Proc.devRef .tc main_v41)
    = resultOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  refine (W4_arr m ρ c 5).trans ((Layer2.final (V3 m ρ) c).trans ?_)
  show Layer2.score (V3 m ρ c main_v39) (V3 m ρ c main_v26) (V3 m ρ c main_arg5) (V3 m ρ c main_arg7) (V3 m ρ c main_v40) = _
  rw [entry1_A m ρ c, entry1_H m ρ c, entry1_Wl m ρ c, entry1_Wr m ρ c, entry1_B m ρ c, hidden_arr m ρ c]
  unfold resultOf
  rfl

/-- Every weakly fair execution of the kernel's program ends with the result array at `resultOf` of the arguments
    and the arguments as launched. -/
theorem run : θ_run defs (onTc (τ := τ) (main (F := Ideal))) ⟨m, fun _ => 0, ρ⟩ (fun r => ∀ c : Dev nD,
      r.2.mem ((c.tc : Thread nD τ).loc main_v41)
        = resultOf (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_arr m ρ c), (h c).2⟩)
    (Cert.KernelIdeal.RunNamed.run (F := Ideal) m ρ)

end Cert.KernelIdeal.Whole

end
-- ==== Proof.LibBroadcastRowsCols.lean ====
/-
  Broadcasts between a vector, a one-column or one-row matrix and a full matrix, read at an entry, for any sizes:
  jnp's `v[:, None]` and `v[None, :]` (a vector laid out as a column or as a row), a column repeated across the
  columns and a row repeated down the rows (`broadcast_in_dim` with dims = [0, 1] from a unit axis), and a scalar
  broadcast to any shape. Each entry of the result is the operand's entry at the coordinates that survive.
  Also: an index of a matrix split into its row and its column.
-/
import Idealize.ShloMosaic.Lib.Pipeline.Value
import Idealize.ShloMosaic.Lib.ValueIdx

namespace Cert.Lib.Broadcast

open Idealize.ShloMosaic Idealize.ShloMosaic.ValueIdx

variable {α : Type}

/-- Every index of a matrix is `(r, q)` for a row `r` and a column `q` typed by the literal extents. -/
theorem exists_ix2 {n0 n1 : ℕ} (i : (⟨2, ![n0, n1]⟩ : Shape).Idx) : ∃ (r : Fin n0) (q : Fin n1), i = ix2 r q :=
  ⟨i 0, i 1, eq_ix2 i⟩

/-- A scalar broadcast to any shape reads, anywhere, the scalar. -/
theorem broadcastInDim_scalar_apply {s : Shape} (v : (⟨0, ![]⟩ : Shape).Idx → α)
    (h : (⟨0, ![]⟩ : Shape).BroadcastsInDim s (![] : Fin 0 → Fin s.rank)) (i : s.Idx) :
    broadcastInDim s ![] h v i = v ix0 :=
  broadcastInDim_apply _ h v i ix0 (fun a => a.elim0)

/-- A vector of length `a` laid out as an `a × 1` column reads, at `(r, z)`, the vector at `r`. -/
theorem broadcastInDim_a_a1_apply {a : ℕ} (v : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ ![0] h v (ix2 r z) = v (ix1 r) := by
  refine broadcastInDim_apply _ h v (ix2 r z) (ix1 r) fun ax => ?_
  match ax with
  | ⟨0, _⟩ =>
    show r.val = if a = 1 then 0 else r.val
    split
    · have := r.isLt; omega
    · rfl

/-- A vector of length `b` laid out as a `1 × b` row reads, at `(z, q)`, the vector at `q`. -/
theorem broadcastInDim_b_1b_apply {b : ℕ} (v : (⟨1, ![b]⟩ : Shape).Idx → α)
    (h : (⟨1, ![b]⟩ : Shape).BroadcastsInDim ⟨2, ![1, b]⟩ (![1] : Fin 1 → Fin 2)) (z : Fin 1) (q : Fin b) :
    broadcastInDim ⟨2, ![1, b]⟩ ![1] h v (ix2 z q) = v (ix1 q) := by
  refine broadcastInDim_apply _ h v (ix2 z q) (ix1 q) fun ax => ?_
  match ax with
  | ⟨0, _⟩ =>
    show q.val = if b = 1 then 0 else q.val
    split
    · have := q.isLt; omega
    · rfl

/-- An `a × 1` column repeated across `b` columns reads, at `(r, q)`, the column at `r`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (r : Fin a) (q : Fin b) :
    broadcastInDim ⟨2, ![a, b]⟩ ![0, 1] h v (ix2 r q) = v (ix2 r (0 : Fin 1)) := by
  refine broadcastInDim_apply _ h v (ix2 r q) (ix2 r (0 : Fin 1)) fun ax => ?_
  match ax with
  | ⟨0, _⟩ =>
    show r.val = if a = 1 then 0 else r.val
    split
    · have := r.isLt; omega
    · rfl
  | ⟨1, _⟩ => rfl

/-- A `1 × b` row repeated down `a` rows reads, at `(r, q)`, the row at `q`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (r : Fin a) (q : Fin b) :
    broadcastInDim ⟨2, ![a, b]⟩ ![0, 1] h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if b = 1 then 0 else q.val
    split
    · have := q.isLt; omega
    · rfl

end Cert.Lib.Broadcast
-- ==== Proof.MeanLaw.lean ====
/-
  The neighbour mean in its two spellings. The kernel's program multiplies the neighbour sum by one over the
  in-degree floored at one; the reference divides the neighbour sum by the floored in-degree. On the extended reals a
  quotient by a nonzero `d` is the product with `d⁻¹`, and `1 / d` is `d⁻¹`; the floored in-degree is at least one,
  so it is not zero, whatever the neighbour sum is: the two arrays are equal, with no finiteness needed.
-/
import proofs.«419590_j58798102282554_1_alg».proof.Proof.HostParts
import proofs.«419590_j58798102282554_1_alg».proof.Proof.LibBroadcastRowsCols
import Idealize.ShloMosaic.Lib.ValueIdx
import Idealize.ShloMosaic.PureOps.Ideal.Laws

noncomputable section

namespace Cert.KernelIdeal.Mean

open Cert.KernelIdeal Cert.KernelIdeal.Gen Cert.KernelIdeal.Shared Cert.Lib.Broadcast
open Idealize.ShloMosaic Idealize.ShloMosaic.ValueIdx

/-- The word of `1.0` denotes the real one. -/
theorem ofBits_one : Ideal.ofBits .f32 0x3F800000#32 = 1 := by
  simp [Ideal.ofBits, Ideal.ieee, -EReal.coe_mul]; norm_num

/-- `n · (1 / d) = n / d` for `d = max g 1`, on all extended reals. -/
theorem mul_one_div_floor (n g : EReal) : n * Ideal.div 1 (max g 1) = Ideal.div n (max g 1) := by
  have h : max g 1 ≠ 0 := fun e => by
    have h1 : (1 : EReal) ≤ max g 1 := le_max_right g 1
    rw [e] at h1
    exact absurd h1 (by norm_num)
  unfold Ideal.div
  rw [if_neg h, if_neg h, one_mul]

/-- The host's quotient of two arrays read at an index. -/
theorem hostDivf_apply {s : Shape} {φ : FTy} (a b : FVec Ideal s φ) (i : s.Idx) : Host.divf a b i = Ideal.div (a i) (b i) := rfl

/-- The two spellings of the neighbour mean are one array. -/
theorem meanMul_eq_meanDiv (s d : (⟨S1600000, .i32⟩ : BufTy).Contents (Elt Ideal)) (h : (⟨S100000x128, .f32⟩ : BufTy).Contents (Elt Ideal)) :
    meanMul (F := Ideal) s d h = meanDiv s d h := by
  refine funext fun (i : S100000x128.Idx) => ?_
  obtain ⟨r, q, rfl⟩ := exists_ix2 i
  unfold meanMul meanDiv cols rdeg
  rw [mulf_apply, hostDivf_apply, broadcastInDim_a1_ab_apply, broadcastInDim_a_a1_apply, broadcastInDim_a1_ab_apply,
    broadcastInDim_a_a1_apply, hostDivf_apply]
  unfold degm
  rw [maximumf_apply, broadcastInDim_scalar_apply, constant_apply, ofBits_one]
  exact mul_one_div_floor _ _

end Cert.KernelIdeal.Mean

end
-- ==== Proof.Bridge.lean ====
/-
  The reference computes the kernel's function. Layer by layer: the reference's neighbour mean (a quotient) is the
  kernel's (a product with the reciprocal); its dense combine  (mean·Wlᵀ + b) + x·Wrᵀ  is the kernel's
  (mean·Wlᵀ + x·Wrᵀ) + b  because addition of extended reals is commutative and associative, each matrix product read
  at an entry being the same sum over the contracted axis; its relu is the same maximum with zero; and its sigmoid
  1 / (1 + exp (−y)) is the logistic function the kernel applies. The second layer takes the first's output, so
  the equalities chain.
-/
import proofs.«419590_j58798102282554_1_alg».proof.Proof.Model
import proofs.«419590_j58798102282554_1_alg».proof.Proof.MeanLaw
import proofs.«419590_j58798102282554_1_alg».proof.Proof.LibBroadcastRowsCols
import proofs.«419590_j58798102282554_1_alg».proof.Proof.Gen.ReferenceIdeal.Read
import Idealize.ShloMosaic.Lib.ValueIdx
import Idealize.ShloMosaic.Lib.ValueLayout
import Idealize.ShloMosaic.PureOps.Ideal.Laws

noncomputable section

namespace Cert.Bridge

open Cert.KernelIdeal Cert.KernelIdeal.Gen
open Cert.KernelIdeal.Shared Cert.KernelIdeal.Model Cert.KernelIdeal.Mean Cert.Lib.Broadcast
open Cert.ReferenceIdeal.Read
open Idealize.ShloMosaic Idealize.ShloMosaic.ValueIdx

variable (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S1x128, .f32⟩ : BufTy).Contents (Elt Ideal)) (x6 : (⟨S1, .f32⟩ : BufTy).Contents (Elt Ideal)) (x7 : (⟨S1x128, .f32⟩ : BufTy).Contents (Elt Ideal))

/-! ## The neighbour means -/

/-- The reference's quotient by the floored in-degree of the neighbour sum of any `h`, in the shared functions. -/
theorem ref_mean_of (h : (⟨S100000x128, .f32⟩ : BufTy).Contents (Elt Ideal)) :
    (Host.divf (F := Ideal) (φ := .f32) (Host.scatterAdd (F := Ideal) (φ := .f32) Cert.ReferenceIdeal.scatter_S100000x128_S1600000x1_S1600000x128_1_0_0_1
        (val_main_v11 (F := Ideal)) (val_main_v12 (F := Ideal) x1)
        (Host.gather (α := Ideal .f32) Cert.ReferenceIdeal.gather_S100000x128_S1600000x1_S1600000x128_1_0_n_n_0_1_1128 h (val_main_v9 (F := Ideal) x1)))
      (val_main_v21 (F := Ideal) x1) : (⟨S100000x128, .f32⟩ : BufTy).Contents (Elt Ideal))
    = meanDiv (srcRow x1) (dstRow x1) h := rfl

/-- The first layer's neighbour mean. -/
theorem ref_mean1 : val_main_v22 (F := Ideal) x0 x1 = meanMul (srcRow x1) (dstRow x1) x0 :=
  (ref_mean_of x1 x0).trans (meanMul_eq_meanDiv _ _ _).symm

/-- The second layer's neighbour mean, of the reference's own hidden layer. -/
theorem ref_mean2 : val_main_v50 (F := Ideal) x0 x1 x2 x3 x4
    = meanMul (srcRow x1) (dstRow x1) (val_main_v31 (F := Ideal) x0 x1 x2 x3 x4) :=
  (show val_main_v50 (F := Ideal) x0 x1 x2 x3 x4 = _ from rfl).trans
    ((ref_mean_of x1 (val_main_v31 (F := Ideal) x0 x1 x2 x3 x4)).trans (meanMul_eq_meanDiv _ _ _).symm)

/-! ## The first layer -/

/-- The reference's hidden layer is the kernel's. -/
theorem ref_hidden : val_main_v31 (F := Ideal) x0 x1 x2 x3 x4 = hiddenOf x0 x1 x2 x3 x4 := by
  unfold hiddenOf
  rw [← ref_mean1 x0 x1]
  refine funext fun (i : S100000x128.Idx) => ?_
  obtain ⟨r, q, rfl⟩ := exists_ix2 i
  rw [val_main_v31_apply, val_main_v30_apply, val_main_v27_apply, val_main_v24_apply, val_main_v29_apply]
  show _ = Layer1.hiddenAt _ _ _ _ _ r q
  unfold Layer1.hiddenAt
  generalize val_main_v22 (F := Ideal) x0 x1 = A
  have h1 : ∀ k : Fin 128, A (lidx_main_v24 (ix2 r q) k) * val_main_v23 (F := Ideal) x2 (ridx_main_v24 (ix2 r q) k)
      = A (ix2 r k) * x2 (ix2 q k) := fun k => by
    rw [val_main_v23_apply]
    exact congrArg₂ (· * ·) (congrArg A (funext fun a => Fin.ext (by match a with | ⟨0, _⟩ => rfl | ⟨1, _⟩ => rfl))) (congrArg x2 (funext fun a => Fin.ext (by match a with | ⟨0, _⟩ => rfl | ⟨1, _⟩ => rfl)))
  have h2 : ∀ k : Fin 128, x0 (lidx_main_v29 (ix2 r q) k) * val_main_v28 (F := Ideal) x4 (ridx_main_v29 (ix2 r q) k)
      = x0 (ix2 r k) * x4 (ix2 q k) := fun k => by
    rw [val_main_v28_apply]
    exact congrArg₂ (· * ·) (congrArg x0 (funext fun a => Fin.ext (by match a with | ⟨0, _⟩ => rfl | ⟨1, _⟩ => rfl))) (congrArg x4 (funext fun a => Fin.ext (by match a with | ⟨0, _⟩ => rfl | ⟨1, _⟩ => rfl)))
  have hb : val_main_v26 (F := Ideal) x3 (ix2 r q) = shapeCast S1x128 x3 shapeCasts_S128_S1x128 (ix2 (0 : Fin 1) q) := by
    unfold val_main_v26 val_main_v25
    rw [broadcastInDim_1b_ab_apply, broadcastInDim_b_1b_apply, shapeCast_a_1a_apply]
  have hz : val_main_call0_v0 (F := Ideal) (ix2 r q) = Ideal.ofBits .f32 0x00000000#32 := by
    unfold val_main_call0_v0 val_main_call0_cst
    rw [broadcastInDim_scalar_apply, constant_apply]
  rw [Finset.sum_congr rfl (fun k _ => h1 k), Finset.sum_congr rfl (fun k _ => h2 k), hb, hz]
  simp only [Ideal.maximumf_def, Ideal.addf_def]
  rw [add_right_comm]

/-! ## The second layer -/

/-- The reference's result is the kernel's. -/
theorem ref_out : val_main_v64 (F := Ideal) x0 x1 x2 x3 x4 x5 x6 x7 = resultOf x0 x1 x2 x3 x4 x5 x6 x7 := by
  unfold resultOf
  rw [← ref_hidden x0 x1 x2 x3 x4, ← ref_mean2 x0 x1 x2 x3 x4]
  refine funext fun (i : S100000x1.Idx) => ?_
  obtain ⟨r, z, rfl⟩ := exists_ix2 i
  rw [val_main_v64_apply, val_main_v62_apply, val_main_v60_apply, val_main_v59_apply, val_main_v58_apply,
    val_main_v55_apply, val_main_v52_apply, val_main_v57_apply]
  show _ = Layer2.scoreAt _ _ _ _ _ r z
  unfold Layer2.scoreAt
  generalize val_main_v50 (F := Ideal) x0 x1 x2 x3 x4 = A
  generalize val_main_v31 (F := Ideal) x0 x1 x2 x3 x4 = H
  have h1 : ∀ k : Fin 128, A (lidx_main_v52 (ix2 r z) k) * val_main_v51 (F := Ideal) x5 (ridx_main_v52 (ix2 r z) k)
      = A (ix2 r k) * x5 (ix2 z k) := fun k => by
    rw [val_main_v51_apply]
    exact congrArg₂ (· * ·) (congrArg A (funext fun a => Fin.ext (by match a with | ⟨0, _⟩ => rfl | ⟨1, _⟩ => rfl))) (congrArg x5 (funext fun a => Fin.ext (by match a with | ⟨0, _⟩ => rfl | ⟨1, _⟩ => rfl)))
  have h2 : ∀ k : Fin 128, H (lidx_main_v57 (ix2 r z) k) * val_main_v56 (F := Ideal) x7 (ridx_main_v57 (ix2 r z) k)
      = H (ix2 r k) * x7 (ix2 z k) := fun k => by
    rw [val_main_v56_apply]
    exact congrArg₂ (· * ·) (congrArg H (funext fun a => Fin.ext (by match a with | ⟨0, _⟩ => rfl | ⟨1, _⟩ => rfl))) (congrArg x7 (funext fun a => Fin.ext (by match a with | ⟨0, _⟩ => rfl | ⟨1, _⟩ => rfl)))
  have hb : val_main_v54 (F := Ideal) x6 (ix2 r z) = shapeCast S1x1 x6 shapeCasts_S1_S1x1 (ix2 (0 : Fin 1) z) := by
    unfold val_main_v54 val_main_v53
    rw [broadcastInDim_1b_ab_apply, broadcastInDim_b_1b_apply, shapeCast_a_1a_apply]
  have ho1 : val_main_v63 (F := Ideal) (ix2 r z) = 1 := by
    unfold val_main_v63 val_main_cst_11
    rw [broadcastInDim_scalar_apply, constant_apply, ofBits_one]
  have ho2 : val_main_v61 (F := Ideal) (ix2 r z) = 1 := by
    unfold val_main_v61 val_main_cst_10
    rw [broadcastInDim_scalar_apply, constant_apply, ofBits_one]
  rw [Finset.sum_congr rfl (fun k _ => h1 k), Finset.sum_congr rfl (fun k _ => h2 k), hb, ho1, ho2]
  simp only [Ideal.hostDivf_def, Ideal.addf_def, Ideal.hostUnary_exp_def, Ideal.hostNegf_def, Ideal.negf_def]
  unfold Ideal.logistic
  rw [add_right_comm]

end Cert.Bridge

end
-- ==== Proof.lean ====
/-
  A two-layer GraphSAGE forward pass (mean aggregation) over 100000 nodes, 1600000 edges and 128 features, against its
  jnp reference, over the extended reals.

  Both programs compute, for h = x and then for h = the hidden layer,
      mean(h)[i,:] = (Σ_{e : dst e = i} h[src e,:]) / max (deg i, 1),      deg i = Σ_{e : dst e = i} 1,
      hidden = max (mean(x)·Wl1ᵀ + x·Wr1ᵀ + b1, 0),     result = logistic (mean(hidden)·Wl2ᵀ + hidden·Wr2ᵀ + b2).
  The gather and the scatter-add run on the host in both programs, on the same operands, and are never opened. The
  kernel's program multiplies the neighbour sum by 1 / max (deg, 1) where the reference divides by max (deg, 1): one
  array, since max (deg, 1) ≥ 1 is not zero (no finiteness is needed). Each dense layer is one pallas_call over 20
  row blocks of 5000 nodes, the weights whole at every block: its blocks are restrictions of one whole-array function
  and cover the output. The kernel adds the bias last where the reference adds it between the two matrix products:
  addition of extended reals is commutative and associative. The kernel's logistic is the reference's
  1 / (1 + exp (−y)). The narrowing of the matrix products' operands to bf16 is the identity on extended reals.

  Modules: Payload0 / Payload1 (one block's arithmetic at an entry), Region0 / Region1 (each call as a whole-array
  function of the arrays it finds), HostParts (the shared host functions), Model (the kernel's function of its
  arguments), KernelRun (the run with its result named), KernelValue (every buffer a call reads, read back to the
  arguments; the run at the model), MeanLaw (product with the reciprocal = quotient), Bridge (the reference is the model),
  LibBroadcastRowsCols (row and column broadcasts read at an entry). The reference's run and its stages read at an
  index are the generated modules imported below.
-/
import proofs.«419590_j58798102282554_1_alg».proof.Defs
import proofs.«419590_j58798102282554_1_alg».proof.Proof.Gen.Kernel
import proofs.«419590_j58798102282554_1_alg».proof.Proof.Gen.Kernel.Skeleton
import proofs.«419590_j58798102282554_1_alg».proof.Proof.Gen.Kernel.Launch
import proofs.«419590_j58798102282554_1_alg».proof.Proof.Gen.Kernel.Points
import proofs.«419590_j58798102282554_1_alg».proof.Proof.Gen.Kernel.Frame
import proofs.«419590_j58798102282554_1_alg».proof.Proof.Gen.KernelIdeal
import proofs.«419590_j58798102282554_1_alg».proof.Proof.Gen.KernelIdeal.Skeleton
import proofs.«419590_j58798102282554_1_alg».proof.Proof.Gen.KernelIdeal.Launch
import proofs.«419590_j58798102282554_1_alg».proof.Proof.Gen.KernelIdeal.Points
import proofs.«419590_j58798102282554_1_alg».proof.Proof.Gen.KernelIdeal.Frame
import proofs.«419590_j58798102282554_1_alg».proof.Proof.Gen.ReferenceIdeal
import proofs.«419590_j58798102282554_1_alg».proof.Proof.Gen.ReferenceIdeal.Run
import proofs.«419590_j58798102282554_1_alg».proof.Proof.Gen.ReferenceIdeal.Read
import proofs.«419590_j58798102282554_1_alg».proof.Proof.Gen.Pre_finite_inputs
import proofs.«419590_j58798102282554_1_alg».proof.Proof.KernelValue
import proofs.«419590_j58798102282554_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at the model's function of
    the arguments: the kernel's run is stated there, and the reference's term is that function. -/
theorem algebraic : Cert.algebraic_KernelIdeal_ReferenceIdeal := by
  intro m ρ m' ρ' _ hagree
  refine ⟨fun c => Cert.KernelIdeal.Model.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v64_eq, e0, e1, e2, e3, e4, e5, e6, e7]
  exact Cert.Bridge.ref_out _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
